-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S256x64 : Shape := ⟨2, ![256, 64]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : IVec S800000 32) (main_arg4 : IVec S800000 32) (main_arg5 : FVec F S256x128 .f32) (main_arg6 : FVec F S256x64 .f32) (main_arg7 : FVec F S256 .f32) (main_arg8 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg5
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x64 .f32 := Host.absf main_arg6
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_v13 main_v16
-- ==== Kernel.lean ====
abbrev S50000x128 : Shape := ⟨2, ![50000, 128]⟩
abbrev S800000 : Shape := ⟨1, ![800000]⟩
abbrev S256x128 : Shape := ⟨2, ![256, 128]⟩
abbrev S256x64 : Shape := ⟨2, ![256, 64]⟩
abbrev S256 : Shape := ⟨1, ![256]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S1x256 : Shape := ⟨2, ![1, 256]⟩
abbrev S2000x128 : Shape := ⟨2, ![2000, 128]⟩
abbrev S2000x64 : Shape := ⟨2, ![2000, 64]⟩
abbrev S128x256 : Shape := ⟨2, ![128, 256]⟩
abbrev S2000x256 : Shape := ⟨2, ![2000, 256]⟩
abbrev S64x256 : Shape := ⟨2, ![64, 256]⟩

abbrev nBuf : Space → Nat
  | .hbm => 80
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S256x128, .f32⟩
  | .hbm, ⟨6, _⟩ => ⟨S256x64, .f32⟩
  | .hbm, ⟨7, _⟩ => ⟨S256, .f32⟩
  | .hbm, ⟨8, _⟩ => ⟨S256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S50000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000, .f32⟩
  | .hbm, ⟨65, _⟩ => ⟨S50000, .i1⟩
  | .hbm, ⟨66, _⟩ => ⟨S50000, .f32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x64, .f32⟩
  | .hbm, ⟨76, _⟩ => ⟨S50000x64, .f32⟩
  | .hbm, ⟨77, _⟩ => ⟨S1x256, .f32⟩
  | .hbm, ⟨78, _⟩ => ⟨S1x256, .f32⟩
  | .hbm, ⟨79, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S256x128, .f32⟩
  | .local _ .vmem, ⟨7, _⟩ => ⟨S256x64, .f32⟩
  | .local _ .vmem, ⟨8, _⟩ => ⟨S1x256, .f32⟩
  | .local _ .vmem, ⟨9, _⟩ => ⟨S1x256, .f32⟩
  | .local _ .vmem, ⟨10, _⟩ => ⟨S2000x128, .f32⟩
  | .local _ .vmem, ⟨11, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S50000x128_S50000x64_0_0 : S50000x128.Slices ![0, 0] S50000x64
  slices_S50000x128_S50000x64_0_64 : S50000x128.Slices ![0, 64] S50000x64
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S256x128_S256x128_0_0 : ∀ a, (![0, 0] : Fin 2 → Nat) a + S256x128.size a ≤ S256x128.size a
  h_S256x128 : 0 < S256x128.numel
  inb_S256x64_S256x64_0_0 : ∀ a, (![0, 0] : Fin 2 → Nat) a + S256x64.size a ≤ S256x64.size a
  h_S256x64 : 0 < S256x64.numel
  transposes_S256x128_p1_0_S128x256 : S256x128.Transposes [1, 0] S128x256
  transposes_S256x64_p1_0_S64x256 : S256x64.Transposes [1, 0] S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x64 : S2000x256.Slices ![0, 0] S2000x64
  slices_S2000x256_o0_64_S2000x64 : S2000x256.Slices ![0, 64] S2000x64
  slices_S2000x256_o0_128_S2000x64 : S2000x256.Slices ![0, 128] S2000x64
  slices_S2000x256_o0_192_S2000x64 : S2000x256.Slices ![0, 192] S2000x64
  concatenates_S2000x64_S2000x64_S2000x128_d1 : Shape.Concatenates [S2000x64, S2000x64] S2000x128 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  dot_S2000x64_S64x256_S2000x256_1_0_0_1_n_n_wf : DotDims.WF S2000x64 S64x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v53) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v54) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v55) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S256x64 : Shape := ⟨2, ![256, 64]⟩
abbrev S256 : Shape := ⟨1, ![256]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S128x256 : Shape := ⟨2, ![128, 256]⟩
abbrev S50000x256 : Shape := ⟨2, ![50000, 256]⟩
abbrev S1x256 : Shape := ⟨2, ![1, 256]⟩
abbrev S64x256 : Shape := ⟨2, ![64, 256]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S256x128, .f32⟩
  | .hbm, ⟨6, _⟩ => ⟨S256x64, .f32⟩
  | .hbm, ⟨7, _⟩ => ⟨S256, .f32⟩
  | .hbm, ⟨8, _⟩ => ⟨S256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S50000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000, .f32⟩
  | .hbm, ⟨65, _⟩ => ⟨S50000, .i1⟩
  | .hbm, ⟨66, _⟩ => ⟨S50000, .f32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x64, .f32⟩
  | .hbm, ⟨76, _⟩ => ⟨S50000x64, .f32⟩
  | .hbm, ⟨77, _⟩ => ⟨S128x256, .f32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S64x256, .f32⟩
  | .hbm, ⟨83, _⟩ => ⟨S50000x256, .f32⟩
  | .hbm, ⟨84, _⟩ => ⟨S50000x256, .f32⟩
  | .hbm, ⟨85, _⟩ => ⟨S1x256, .f32⟩
  | .hbm, ⟨86, _⟩ => ⟨S50000x256, .f32⟩
  | .hbm, ⟨87, _⟩ => ⟨S50000x256, .f32⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000x64, .f32⟩
  | .hbm, ⟨96, _⟩ => ⟨S50000x64, .f32⟩
  | .hbm, ⟨97, _⟩ => ⟨S_, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S50000x64, .f32⟩
  | .hbm, ⟨102, _⟩ => ⟨S50000x64, .f32⟩
  | .hbm, ⟨103, _⟩ => ⟨S_, .f32⟩
  | .hbm, ⟨104, _⟩ => ⟨S50000x64, .f32⟩
  | .hbm, ⟨105, _⟩ => ⟨S50000x64, .f32⟩
  | .hbm, ⟨106, _⟩ => ⟨S_, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S50000x64, .f32⟩
  | .hbm, ⟨111, _⟩ => ⟨S50000x64, .f32⟩
  | .hbm, ⟨112, _⟩ => ⟨S50000x64, .f32⟩
  | .hbm, ⟨113, _⟩ => ⟨S50000x64, .f32⟩
  | .hbm, ⟨114, _⟩ => ⟨S_, .f32⟩
  | .hbm, ⟨115, _⟩ => ⟨S50000x64, .f32⟩
  | .hbm, ⟨116, _⟩ => ⟨S50000x64, .f32⟩
  | .hbm, ⟨117, _⟩ => ⟨S_, .f32⟩
  | .hbm, ⟨118, _⟩ => ⟨S50000x64, .f32⟩
  | .hbm, ⟨119, _⟩ => ⟨S50000x64, .f32⟩
  | .hbm, ⟨120, _⟩ => ⟨S50000x64, .f32⟩
  | .hbm, ⟨121, _⟩ => ⟨S50000x64, .f32⟩
  | .hbm, ⟨122, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_cst_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S50000x128_S50000x64_0_0 : S50000x128.Slices ![0, 0] S50000x64
  slices_S50000x128_S50000x64_0_64 : S50000x128.Slices ![0, 64] S50000x64
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S256x64_S64x256_1_0 : S256x64.Transposes [1, 0] S64x256
  slices_S50000x256_S50000x64_0_0 : S50000x256.Slices ![0, 0] S50000x64
  slices_S50000x256_S50000x64_0_64 : S50000x256.Slices ![0, 64] S50000x64
  slices_S50000x256_S50000x64_0_128 : S50000x256.Slices ![0, 128] S50000x64
  slices_S50000x256_S50000x64_0_192 : S50000x256.Slices ![0, 192] S50000x64
  bcast_S_S50000x64 : S_.BroadcastsInDim S50000x64 (![] : Fin 0 → Fin S50000x64.rank)
  concatenates_S50000x64_S50000x64_S50000x128_d1 : Shape.Concatenates [S50000x64, S50000x64] S50000x128 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  dot_S50000x64_S64x256_S50000x256_1_0_0_1_n_n_wf : DotDims.WF S50000x64 S64x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf

class Facts : Prop extends Facts₀ where

variable [Facts]
-- ==== Proof.Cell.lean ====
/-
  One node's LSTM-cell update over the extended reals, as a function of that node's rows and of the weights.

  The four gate pre-activations i, f, g, o at hidden coordinate q are the entries q, 64 + q, 128 + q, 192 + q of one
  vector z of length 256, z j = Σ_κ x κ · W₁ j κ + Σ_κ h κ · W₂ j κ + b₁ j + b₂ j. With σ the logistic function the new
  cell state is c' q = σ (f) · c q + σ (i) · tanh (g), the new hidden state h' q = σ (o) · tanh (c' q), and the output row
  is h' followed by c'. Addition on the extended reals is commutative and associative, so the order in which the four
  summands of z are added does not matter; no other law is used, and none that fails at an infinity.
-/
import Idealize.ShloMosaic.PureOps.Ideal
import Idealize.ShloMosaic.Lib.IdealHost
import Idealize.ShloMosaic.Lib.ValueIdx

noncomputable section

open scoped BigOperators

namespace Cert.Lstm

open Idealize.ShloMosaic Idealize.ShloMosaic.ValueIdx

/-- The gate pre-activation at coordinate j: the input row against row j of W₁, the hidden row against row j of W₂,
    and the two biases, added in this order. -/
def pre (xr : Fin 128 → EReal) (hr : Fin 64 → EReal) (W₁ : Fin 256 → Fin 128 → EReal) (W₂ : Fin 256 → Fin 64 → EReal)
    (b₁ b₂ : Fin 256 → EReal) (j : Fin 256) : EReal :=
  (∑ κ : Fin 128, xr κ * W₁ j κ) + (∑ κ : Fin 64, hr κ * W₂ j κ) + b₁ j + b₂ j

/-- The same four summands with the first bias added before the hidden product. -/
theorem pre_bias_first (xr : Fin 128 → EReal) (hr : Fin 64 → EReal) (W₁ : Fin 256 → Fin 128 → EReal)
    (W₂ : Fin 256 → Fin 64 → EReal) (b₁ b₂ : Fin 256 → EReal) (j : Fin 256) :
    (∑ κ : Fin 128, xr κ * W₁ j κ) + b₁ j + (∑ κ : Fin 64, hr κ * W₂ j κ) + b₂ j = pre xr hr W₁ W₂ b₁ b₂ j := by
  unfold pre
  rw [add_right_comm (∑ κ : Fin 128, xr κ * W₁ j κ) (b₁ j)]

/-- Coordinate o + q of the 256 pre-activations: gate number o / 64 at hidden coordinate q. -/
def gcol (o : Nat) (ho : o + 64 ≤ 256) (q : Fin 64) : Fin 256 := ⟨o + q.val, by have := q.isLt; omega⟩

/-- The new cell state: forget gate times old cell state plus input gate times candidate. -/
def newC (z : Fin 256 → EReal) (cr : Fin 64 → EReal) (q : Fin 64) : EReal :=
  Ideal.logistic (z (gcol 64 (by omega) q)) * cr q
    + Ideal.logistic (z (gcol 0 (by omega) q)) * Ideal.tanh (z (gcol 128 (by omega) q))

/-- The new hidden state: output gate times tanh of the new cell state. -/
def newH (z : Fin 256 → EReal) (cr : Fin 64 → EReal) (q : Fin 64) : EReal :=
  Ideal.logistic (z (gcol 192 (by omega) q)) * Ideal.tanh (newC z cr q)

/-- The output row: the new hidden state in columns 0 … 63, the new cell state in columns 64 … 127. -/
def outRow (z : Fin 256 → EReal) (cr : Fin 64 → EReal) (col : Fin 128) : EReal :=
  if h : col.val < 64 then newH z cr ⟨col.val, h⟩ else newC z cr ⟨col.val - 64, by have := col.isLt; omega⟩

/-- 1 / (1 + e^(-x)), with both ones given by the f32 pattern of one, is the logistic function. -/
theorem logistic_spelled (x : EReal) :
    Ideal.div (Ideal.ofBits .f32 0x3F800000#32) (Ideal.ofBits .f32 0x3F800000#32 + Ideal.exp (-x)) = Ideal.logistic x := by
  rw [Ideal.ofBits_one_f32]; rfl

/-- The whole result: row n of the 50000 × 128 output is the LSTM-cell output row of node n, from row n of the node
    features X, of the aggregated hidden input Hd and of the aggregated cell input Cd, the weights W₁, W₂ and the
    biases b₁, b₂. -/
def outArr (X : (⟨2, ![50000, 128]⟩ : Shape).Idx → EReal) (Hd Cd : (⟨2, ![50000, 64]⟩ : Shape).Idx → EReal)
    (W₁ : (⟨2, ![256, 128]⟩ : Shape).Idx → EReal) (W₂ : (⟨2, ![256, 64]⟩ : Shape).Idx → EReal) (b₁ b₂ : Fin 256 → EReal) :
    (⟨2, ![50000, 128]⟩ : Shape).Idx → EReal := fun i =>
  outRow (pre (fun κ => X (ix2 (⟨(i 0).val, (i 0).isLt⟩ : Fin 50000) κ)) (fun κ => Hd (ix2 (⟨(i 0).val, (i 0).isLt⟩ : Fin 50000) κ))
      (fun j κ => W₁ (ix2 j κ)) (fun j κ => W₂ (ix2 j κ)) b₁ b₂)
    (fun q => Cd (ix2 (⟨(i 0).val, (i 0).isLt⟩ : Fin 50000) q)) (⟨(i 1).val, (i 1).isLt⟩ : Fin 128)

end Cert.Lstm

end
-- ==== Proof.RefRow.lean ====
/-
  The reference's result read at one index (n, col).

  Row n of the reference's 256 gate pre-activations is the pre-activation of Cell.lean at row n of the node features
  and of the aggregated hidden input, with the first bias added before the hidden product (the order does not matter:
  Cell.lean). The reference spells the logistic function as 1 / (1 + e^(-x)) with both ones the f32 pattern of one;
  on the extended reals that is the logistic function itself. So the result at (n, col) is the LSTM-cell output row of
  row n: the new hidden state in columns 0 … 63 and the new cell state in columns 64 … 127.
-/
import proofs.«117068_j21655225106656_1_alg».proof.Proof.RefReadP
import proofs.«117068_j21655225106656_1_alg».proof.Proof.Cell
import Idealize.ShloMosaic.Lib.Pipeline.Value
import Idealize.ShloMosaic.Lib.ValueIdx

noncomputable section

open scoped BigOperators

namespace Cert.ReferenceIdeal.Row

open Cert.ReferenceIdeal Cert.ReferenceIdeal.Gen Cert.ReferenceIdeal.ReadP Idealize.ShloMosaic Idealize.ShloMosaic.ValueIdx

variable (x0 : (⟨S50000x128, .f32⟩ : BufTy).Contents (Elt Ideal)) (x1 x2 x3 x4 : (⟨S800000, .i32⟩ : BufTy).Contents (Elt Ideal))
  (x5 : (⟨S256x128, .f32⟩ : BufTy).Contents (Elt Ideal)) (x6 : (⟨S256x64, .f32⟩ : BufTy).Contents (Elt Ideal))
  (x7 x8 : (⟨S256, .f32⟩ : BufTy).Contents (Elt Ideal))

/-- Row n, coordinate j of the reference's gate pre-activations. -/
theorem z_apply (n : Fin 50000) (j : Fin 256) :
    val_main_v63 (F := Ideal) x0 x1 x2 x3 x4 x5 x6 x7 x8 (ix2 n j)
      = Lstm.pre (fun κ => x0 (ix2 n κ)) (fun κ => val_main_v51 (F := Ideal) x0 x1 x2 x3 x4 (ix2 n κ))
          (fun j κ => x5 (ix2 j κ)) (fun j κ => x6 (ix2 j κ)) (fun j => x7 (ix1 j)) (fun j => x8 (ix1 j)) j := by
  rw [← Lstm.pre_bias_first, val_main_v63_apply, val_main_v60_apply, val_main_v57_apply, val_main_v54_apply, val_main_v59_apply,
    val_main_v56_apply, val_main_v55_apply, val_main_v62_apply, val_main_v61_apply]
  simp only [val_main_v53_apply, val_main_v58_apply, Ideal.addf_def]
  have hx : ∀ k : Fin 128, x0 (lidx_main_v54 (ix2 n j) k) = x0 (ix2 n k) := fun k => congrArg x0 (funext fun a => Fin.ext (by match a with | ⟨0, _⟩ => rfl | ⟨1, _⟩ => rfl))
  have hw : ∀ k : Fin 128, x5 (idx_main_v53 (ridx_main_v54 (ix2 n j) k)) = x5 (ix2 j k) := fun k => congrArg x5 (funext fun a => Fin.ext (by match a with | ⟨0, _⟩ => rfl | ⟨1, _⟩ => rfl))
  have hh : ∀ k : Fin 64, val_main_v51 (F := Ideal) x0 x1 x2 x3 x4 (lidx_main_v59 (ix2 n j) k)
      = val_main_v51 (F := Ideal) x0 x1 x2 x3 x4 (ix2 n k) := fun k => congrArg _ (funext fun a => Fin.ext (by match a with | ⟨0, _⟩ => rfl | ⟨1, _⟩ => rfl))
  have hu : ∀ k : Fin 64, x6 (idx_main_v58 (ridx_main_v59 (ix2 n j) k)) = x6 (ix2 j k) := fun k => congrArg x6 (funext fun a => Fin.ext (by match a with | ⟨0, _⟩ => rfl | ⟨1, _⟩ => rfl))
  have hb : x7 (idx_main_v55 (idx_main_v56 (ix2 n j))) = x7 (ix1 j) := congrArg x7 (funext fun a => Fin.ext (by match a with | ⟨0, _⟩ => rfl))
  have hc : x8 (idx_main_v61 (idx_main_v62 (ix2 n j))) = x8 (ix1 j) := congrArg x8 (funext fun a => Fin.ext (by match a with | ⟨0, _⟩ => rfl))
  simp only [hx, hw, hh, hu, hb, hc]

/-- The reference's new cell state at (n, q). -/
theorem c_apply (n : Fin 50000) (q : Fin 64) :
    val_main_v83 (F := Ideal) x0 x1 x2 x3 x4 x5 x6 x7 x8 (ix2 n q)
      = Lstm.newC (fun j => val_main_v63 (F := Ideal) x0 x1 x2 x3 x4 x5 x6 x7 x8 (ix2 n j)) (fun q => val_main_v52 (F := Ideal) x0 x1 x2 x3 x4 (ix2 n q)) q := by
  simp only [val_main_v83_apply, val_main_v74_apply, val_main_v73_apply, val_main_v72_apply, val_main_cst_14_apply,
    val_main_v71_apply, val_main_v70_apply, val_main_cst_13_apply, val_main_v69_apply, val_main_v68_apply, val_main_v65_apply,
    val_main_v82_apply, val_main_v80_apply, val_main_v79_apply, val_main_cst_16_apply, val_main_v78_apply, val_main_v77_apply,
    val_main_cst_15_apply, val_main_v76_apply, val_main_v75_apply, val_main_v64_apply, val_main_v81_apply, val_main_v66_apply,
    Ideal.addf_def, Ideal.mulf_def, Ideal.hostDivf_def, Ideal.hostUnary_exp_def, Ideal.hostUnary_tanh_def, Ideal.hostNegf_def,
    Ideal.negf_def, Ideal.ofBits_def, Lstm.logistic_spelled]
  have e0 : idx_main_v64 (ix2 n q) = ix2 n (Lstm.gcol 0 (by omega) q) := funext fun a => Fin.ext (by
    match a with | ⟨0, _⟩ => rfl | ⟨1, _⟩ => exact (Nat.zero_add _).symm)
  have e1 : idx_main_v65 (ix2 n q) = ix2 n (Lstm.gcol 64 (by omega) q) := funext fun a => Fin.ext (by match a with | ⟨0, _⟩ => rfl | ⟨1, _⟩ => rfl)
  have e2 : idx_main_v66 (ix2 n q) = ix2 n (Lstm.gcol 128 (by omega) q) := funext fun a => Fin.ext (by match a with | ⟨0, _⟩ => rfl | ⟨1, _⟩ => rfl)
  rw [e0, e1, e2]
  rfl

/-- The reference's new hidden state at (n, q). -/
theorem h_apply (n : Fin 50000) (q : Fin 64) :
    val_main_v91 (F := Ideal) x0 x1 x2 x3 x4 x5 x6 x7 x8 (ix2 n q)
      = Lstm.newH (fun j => val_main_v63 (F := Ideal) x0 x1 x2 x3 x4 x5 x6 x7 x8 (ix2 n j)) (fun q => val_main_v52 (F := Ideal) x0 x1 x2 x3 x4 (ix2 n q)) q := by
  simp only [val_main_v91_apply, val_main_v89_apply, val_main_v88_apply, val_main_cst_18_apply, val_main_v87_apply,
    val_main_v86_apply, val_main_cst_17_apply, val_main_v85_apply, val_main_v84_apply, val_main_v67_apply, val_main_v90_apply,
    Ideal.addf_def, Ideal.mulf_def, Ideal.hostDivf_def, Ideal.hostUnary_exp_def, Ideal.hostUnary_tanh_def, Ideal.hostNegf_def,
    Ideal.negf_def, Ideal.ofBits_def, Lstm.logistic_spelled]
  have e3 : idx_main_v67 (ix2 n q) = ix2 n (Lstm.gcol 192 (by omega) q) := funext fun a => Fin.ext (by match a with | ⟨0, _⟩ => rfl | ⟨1, _⟩ => rfl)
  rw [e3, c_apply]
  rfl

/-- The reference's result at (n, col): the LSTM-cell output row of row n. -/
theorem out_apply (n : Fin 50000) (col : Fin 128) :
    val_main_v92 (F := Ideal) x0 x1 x2 x3 x4 x5 x6 x7 x8 (ix2 n col)
      = Lstm.outRow (Lstm.pre (fun κ => x0 (ix2 n κ)) (fun κ => val_main_v51 (F := Ideal) x0 x1 x2 x3 x4 (ix2 n κ))
          (fun j κ => x5 (ix2 j κ)) (fun j κ => x6 (ix2 j κ)) (fun j => x7 (ix1 j)) (fun j => x8 (ix1 j)))
          (fun q => val_main_v52 (F := Ideal) x0 x1 x2 x3 x4 (ix2 n q)) col := by
  unfold val_main_v92 Lstm.outRow
  by_cases h : col.val < 64
  · rw [dif_pos h]
    rw [concatenate_pair_apply_left (1 : Fin S50000x128.rank) _ _ concatenates_S50000x64_S50000x64_S50000x128_d1 (ix2 n col) rfl
      (ix2 n ⟨col.val, h⟩) (fun b => match b with | ⟨0, _⟩ => rfl | ⟨1, _⟩ => rfl)]
    rw [h_apply]
    simp only [z_apply]
  · rw [dif_neg h]
    rw [concatenate_pair_apply_right (1 : Fin S50000x128.rank) _ _ concatenates_S50000x64_S50000x64_S50000x128_d1 (ix2 n col) rfl rfl
      (ix2 n ⟨col.val - 64, by have := col.isLt; omega⟩)
      (fun b => match b with | ⟨0, _⟩ => fun _ => rfl | ⟨1, _⟩ => fun hb => absurd rfl hb)
      (by show col.val - 64 + 64 = col.val; omega)]
    rw [c_apply]
    simp only [z_apply]

/-- The reference's whole result is Cell.lean's outArr of the arguments and of its own aggregated inputs. -/
theorem out_eq :
    val_main_v92 (F := Ideal) x0 x1 x2 x3 x4 x5 x6 x7 x8
      = Lstm.outArr x0 (val_main_v51 (F := Ideal) x0 x1 x2 x3 x4) (val_main_v52 (F := Ideal) x0 x1 x2 x3 x4) x5 x6
          (fun j => x7 (ix1 j)) (fun j => x8 (ix1 j)) := by
  funext i
  obtain ⟨n, col, rfl⟩ : ∃ (n : Fin 50000) (col : Fin 128), i = ix2 n col := ⟨i 0, i 1, eq_ix2 i⟩
  exact out_apply x0 x1 x2 x3 x4 x5 x6 x7 x8 n col

end Cert.ReferenceIdeal.Row

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.KernelBlock.lean ====
/-
  What the kernel body stores, read at one index of its 2000 × 128 output block.

  At row p the body computes the 256 gate pre-activations of that row — the row of the node block against the
  transposed input weights, plus the row of the hidden block against the transposed hidden weights, plus the two
  bias rows — cuts them into the four gates, and stores the new hidden state beside the new cell state. Read at
  (p, col) that is the LSTM-cell output row of Cell.lean at the rows p of the three node blocks. A change of float
  format is the identity on the extended reals, and a matrix product into the zero accumulator is the plain sum.
-/
import proofs.«117068_j21655225106656_1_alg».proof.Proof.Gen.KernelIdeal.Skeleton
import proofs.«117068_j21655225106656_1_alg».proof.Proof.Cell
import proofs.«117068_j21655225106656_1_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.Block

open Cert.KernelIdeal Cert.KernelIdeal.Gen Idealize.ShloMosaic Idealize.ShloMosaic.ValueIdx

/-- The input product contracts the node block's columns with the transposed weights' rows. -/
theorem plain_in : PlainDot.IsPlain dot_S2000x128_S128x256_S2000x256_1_0_0_1_n_n := ⟨rfl, rfl, rfl, rfl, rfl, rfl⟩

/-- So does the hidden product. -/
theorem plain_hid : PlainDot.IsPlain dot_S2000x64_S64x256_S2000x256_1_0_0_1_n_n := ⟨rfl, rfl, rfl, rfl, rfl, rfl⟩

/-- The block of gate pre-activations, as the body spells it. -/
def zBlk (v0 : Vec Ideal S2000x128 .f32) (v2 : Vec Ideal S2000x64 .f32) (v5 : Vec Ideal S256x128 .f32)
    (v7 : Vec Ideal S256x64 .f32) (v14 v18 : Vec Ideal S1x256 .f32) : FVec Ideal S2000x256 .f32 :=
  addf (addf (addf
    (matmul dot_S2000x128_S128x256_S2000x256_1_0_0_1_n_n none (truncf .bf16 v0 bitsLt_bf16_f32)
      (transpose S128x256 [1, 0] (truncf .bf16 v5 bitsLt_bf16_f32) transposes_S256x128_p1_0_S128x256)
      (constant S2000x256 .f32 0x00000000#32))
    (matmul dot_S2000x64_S64x256_S2000x256_1_0_0_1_n_n none
      (truncf .bf16 (shapeCast S2000x64 v2 shapeCasts_S2000x64_S2000x64) bitsLt_bf16_f32)
      (transpose S64x256 [1, 0] (truncf .bf16 v7 bitsLt_bf16_f32) transposes_S256x64_p1_0_S64x256)
      (constant S2000x256 .f32 0x00000000#32)))
    (broadcastTo S2000x256 (shapeCast S1x256 v14 shapeCasts_S1x256_S1x256) broadcasts_S1x256_S2000x256))
    (broadcastTo S2000x256 (shapeCast S1x256 v18 shapeCasts_S1x256_S1x256) broadcasts_S1x256_S2000x256)

/-- The transposed input weights at (κ, j) are the input weights at (j, κ). -/
theorem wInT_apply (v5 : Vec Ideal S256x128 .f32) (κ : Fin 128) (j : Fin 256) :
    (transpose S128x256 [1, 0] (truncf (F := Ideal) .bf16 v5 bitsLt_bf16_f32) transposes_S256x128_p1_0_S128x256 (ix2 κ j) : EReal)
      = v5 (ix2 j κ) :=
  transpose_ix2_apply (truncf (F := Ideal) .bf16 v5 bitsLt_bf16_f32) transposes_S256x128_p1_0_S128x256 κ j

/-- The transposed hidden weights at (κ, j) are the hidden weights at (j, κ). -/
theorem wHidT_apply (v7 : Vec Ideal S256x64 .f32) (κ : Fin 64) (j : Fin 256) :
    (transpose S64x256 [1, 0] (truncf (F := Ideal) .bf16 v7 bitsLt_bf16_f32) transposes_S256x64_p1_0_S64x256 (ix2 κ j) : EReal)
      = v7 (ix2 j κ) :=
  transpose_ix2_apply (truncf (F := Ideal) .bf16 v7 bitsLt_bf16_f32) transposes_S256x64_p1_0_S64x256 κ j

/-- Row p, coordinate j of the pre-activation block is the pre-activation of row p. -/
theorem zBlk_apply (v0 : Vec Ideal S2000x128 .f32) (v2 : Vec Ideal S2000x64 .f32) (v5 : Vec Ideal S256x128 .f32)
    (v7 : Vec Ideal S256x64 .f32) (v14 v18 : Vec Ideal S1x256 .f32) (p : Fin 2000) (j : Fin 256) :
    zBlk v0 v2 v5 v7 v14 v18 (ix2 p j)
      = Lstm.pre (fun κ => v0 (ix2 p κ)) (fun κ => v2 (ix2 p κ)) (fun j κ => v5 (ix2 j κ)) (fun j κ => v7 (ix2 j κ))
          (fun j => v14 (ix2 (0 : Fin 1) j)) (fun j => v18 (ix2 (0 : Fin 1) j)) j := by
  unfold zBlk Lstm.pre
  rw [addf_apply, addf_apply, addf_apply]
  dsimp only [matmul]
  rw [PlainDot.matmul_zero_plain _ plain_in, PlainDot.matmul_zero_plain _ plain_hid]
  rw [broadcastTo_1b_ab_apply, broadcastTo_1b_ab_apply, shapeCast_self, shapeCast_self, shapeCast_self]
  exact congrArg₂ (fun a b : EReal => a + b) (congrArg₂ (fun a b : EReal => a + b) (congrArg₂ (fun a b : EReal => a + b)
    (Finset.sum_congr rfl fun κ _ => congrArg (fun w : EReal => v0 (ix2 p κ) * w) (wInT_apply v5 κ j))
    (Finset.sum_congr rfl fun κ _ => congrArg (fun w : EReal => v2 (ix2 p κ) * w) (wHidT_apply v7 κ j))) rfl) rfl

/-- The new cell state of the block. -/
def cBlk (z : FVec Ideal S2000x256 .f32) (v26 : Vec Ideal S2000x64 .f32) : FVec Ideal S2000x64 .f32 :=
  addf (mulf (logistic (extractStridedSlice S2000x64 ![0, 64] z slices_S2000x256_o0_64_S2000x64))
      (shapeCast S2000x64 v26 shapeCasts_S2000x64_S2000x64))
    (mulf (logistic (extractStridedSlice S2000x64 ![0, 0] z slices_S2000x256_o0_0_S2000x64))
      (tanh (extractStridedSlice S2000x64 ![0, 128] z slices_S2000x256_o0_128_S2000x64)))

/-- The new hidden state of the block. -/
def hBlk (z : FVec Ideal S2000x256 .f32) (v26 : Vec Ideal S2000x64 .f32) : FVec Ideal S2000x64 .f32 :=
  mulf (logistic (extractStridedSlice S2000x64 ![0, 192] z slices_S2000x256_o0_192_S2000x64)) (tanh (cBlk z v26))

/-- The body's stored value is the new hidden state beside the new cell state, over the pre-activation block. -/
theorem pay_eq (v0 : Vec Ideal S2000x128 .f32) (v2 : Vec Ideal S2000x64 .f32) (v5 : Vec Ideal S256x128 .f32)
    (v7 : Vec Ideal S256x64 .f32) (v14 v18 : Vec Ideal S1x256 .f32) (v26 : Vec Ideal S2000x64 .f32) :
    k0_pay1 (F := Ideal) v0 v2 v5 v7 v14 v18 v26
      = concatenate S2000x128 1 [⟨S2000x64, hBlk (zBlk v0 v2 v5 v7 v14 v18) v26⟩, ⟨S2000x64, cBlk (zBlk v0 v2 v5 v7 v14 v18) v26⟩]
          concatenates_S2000x64_S2000x64_S2000x128_d1 := rfl

/-- The new cell state of the block at (p, q). -/
theorem cBlk_apply (z : FVec Ideal S2000x256 .f32) (v26 : Vec Ideal S2000x64 .f32) (p : Fin 2000) (q : Fin 64) :
    cBlk z v26 (ix2 p q) = Lstm.newC (fun j => z (ix2 p j)) (fun q => v26 (ix2 p q)) q := by
  unfold cBlk Lstm.newC Lstm.gcol
  rw [addf_apply, mulf_apply, mulf_apply, shapeCast_self]
  show Ideal.logistic (extractStridedSlice S2000x64 ![0, 64] z slices_S2000x256_o0_64_S2000x64 (ix2 p q)) * v26 (ix2 p q)
      + Ideal.logistic (extractStridedSlice S2000x64 ![0, 0] z slices_S2000x256_o0_0_S2000x64 (ix2 p q))
        * Ideal.tanh (extractStridedSlice S2000x64 ![0, 128] z slices_S2000x256_o0_128_S2000x64 (ix2 p q)) = _
  rw [slice2_axis1_eq 64 z, slice2_axis1_eq 0 z, slice2_axis1_eq 128 z]

/-- The new hidden state of the block at (p, q). -/
theorem hBlk_apply (z : FVec Ideal S2000x256 .f32) (v26 : Vec Ideal S2000x64 .f32) (p : Fin 2000) (q : Fin 64) :
    hBlk z v26 (ix2 p q) = Lstm.newH (fun j => z (ix2 p j)) (fun q => v26 (ix2 p q)) q := by
  unfold hBlk Lstm.newH Lstm.gcol
  rw [mulf_apply]
  show Ideal.logistic (extractStridedSlice S2000x64 ![0, 192] z slices_S2000x256_o0_192_S2000x64 (ix2 p q))
      * Ideal.tanh (cBlk z v26 (ix2 p q)) = _
  rw [slice2_axis1_eq 192 z, cBlk_apply]

/-- The stored block at (p, col): the LSTM-cell output row of row p. -/
theorem pay_apply (v0 : Vec Ideal S2000x128 .f32) (v2 : Vec Ideal S2000x64 .f32) (v5 : Vec Ideal S256x128 .f32)
    (v7 : Vec Ideal S256x64 .f32) (v14 v18 : Vec Ideal S1x256 .f32) (v26 : Vec Ideal S2000x64 .f32) (p : Fin 2000) (col : Fin 128) :
    k0_pay1 (F := Ideal) v0 v2 v5 v7 v14 v18 v26 (ix2 p col)
      = Lstm.outRow (Lstm.pre (fun κ => v0 (ix2 p κ)) (fun κ => v2 (ix2 p κ)) (fun j κ => v5 (ix2 j κ))
          (fun j κ => v7 (ix2 j κ)) (fun j => v14 (ix2 (0 : Fin 1) j)) (fun j => v18 (ix2 (0 : Fin 1) j)))
          (fun q => v26 (ix2 p q)) col := by
  rw [pay_eq]
  unfold Lstm.outRow
  by_cases h : col.val < 64
  · rw [dif_pos h]
    rw [concatenate_pair_apply_left (1 : Fin S2000x128.rank) _ _ concatenates_S2000x64_S2000x64_S2000x128_d1 (ix2 p col) rfl
      (ix2 p ⟨col.val, h⟩) (fun b => match b with | ⟨0, _⟩ => rfl | ⟨1, _⟩ => rfl)]
    rw [hBlk_apply]
    simp only [zBlk_apply]
  · rw [dif_neg h]
    rw [concatenate_pair_apply_right (1 : Fin S2000x128.rank) _ _ concatenates_S2000x64_S2000x64_S2000x128_d1 (ix2 p col) rfl rfl
      (ix2 p ⟨col.val - 64, by have := col.isLt; omega⟩)
      (fun b => match b with | ⟨0, _⟩ => fun _ => rfl | ⟨1, _⟩ => fun hb => absurd rfl hb)
      (by show col.val - 64 + 64 = col.val; omega)]
    rw [cBlk_apply]
    simp only [zBlk_apply]

end Cert.KernelIdeal.Block

end
-- ==== Proof.KernelArray.lean ====
/-
  From the kernel's blocks to its whole output array.

  Grid point t handles rows 2000 t … 2000 t + 1999: it reads those rows of the node features and of the two
  aggregated inputs, all of both weight matrices and both bias rows, and writes those rows of the output. The body
  computes each output row from the same row of its three node blocks (KernelBlock.lean), so what point t writes
  back is the restriction to its rows of ONE whole-array function, Cell.lean's outArr of the arrays the region finds;
  the 25 blocks cover all 50000 rows, so the output array ends at that function.
-/
import proofs.«117068_j21655225106656_1_alg».proof.Proof.Gen.KernelIdeal.Value
import proofs.«117068_j21655225106656_1_alg».proof.Proof.KernelBlock
import Idealize.ShloMosaic.Lib.Pipeline.Value

noncomputable section

namespace Cert.KernelIdeal.Arr

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The arrays the region reads, as it finds them. -/
abbrev featArr (c : Dev nD) : Vec Ideal S50000x128 .f32 := V m c main_arg0
abbrev hidArr (c : Dev nD) : Vec Ideal S50000x64 .f32 := V m c main_v51
abbrev cellArr (c : Dev nD) : Vec Ideal S50000x64 .f32 := V m c main_v52
abbrev wInArr (c : Dev nD) : Vec Ideal S256x128 .f32 := V m c main_arg5
abbrev wHidArr (c : Dev nD) : Vec Ideal S256x64 .f32 := V m c main_arg6
abbrev bInArr (c : Dev nD) : Vec Ideal S1x256 .f32 := V m c main_v53
abbrev bHidArr (c : Dev nD) : Vec Ideal S1x256 .f32 := V m c main_v54

/-- Their blocks at grid point t. -/
abbrev featBlk (c : Dev nD) (t : Fin cfg0.N) : Vec Ideal S2000x128 .f32 := iblk m c 0 t
abbrev hidBlk (c : Dev nD) (t : Fin cfg0.N) : Vec Ideal S2000x64 .f32 := iblk m c 1 t
abbrev cellBlk (c : Dev nD) (t : Fin cfg0.N) : Vec Ideal S2000x64 .f32 := iblk m c 2 t
abbrev wInBlk (c : Dev nD) (t : Fin cfg0.N) : Vec Ideal S256x128 .f32 := iblk m c 3 t
abbrev wHidBlk (c : Dev nD) (t : Fin cfg0.N) : Vec Ideal S256x64 .f32 := iblk m c 4 t
abbrev bInBlk (c : Dev nD) (t : Fin cfg0.N) : Vec Ideal S1x256 .f32 := iblk m c 5 t
abbrev bHidBlk (c : Dev nD) (t : Fin cfg0.N) : Vec Ideal S1x256 .f32 := iblk m c 6 t

theorem hz : (![0, 0] : Fin 2 → Nat) = fun _ => 0 := funext fun a => by fin_cases a <;> rfl

/-- The index maps over the 25 grid points: the three node windows move down the rows with the output window, the
    weight and bias windows stay at the origin, and the output's row-block index is below 25. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) < 25 ∧ win0_7.index t (1 : Fin 2) = 0 :=
  (by decide +kernel : ∀ t : Fin grid0.N, _)

/-- Every row block is some point's. -/
theorem idx_onto : ∀ q : Fin 25, ∃ t : Fin cfg0.N, win0_7.index t = ![q.val, 0] :=
  (by decide +kernel : ∀ q : Fin 25, ∃ t : Fin grid0.N, win0_7.index t = ![q.val, 0])

/-- Row p of point t's node-feature block is row 2000 · (t's row block) + p of the array. -/
theorem featBlk_read (c : Dev nD) (t : Fin cfg0.N) (p : Fin 2000) (κ : Fin 128) (n : Fin 50000)
    (hn : n.val = win0_7.index t (0 : Fin 2) * 2000 + p.val) : featBlk m c t (ix2 p κ) = featArr m c (ix2 n κ) := by
  obtain ⟨e0, e1, -⟩ := idx_facts t
  show V m c main_arg0 (((cfg0.win 0).blk t).view.emb (ix2 p κ)) = V m c main_arg0 (ix2 n κ)
  refine congrArg _ (funext fun a => Fin.ext ?_)
  match a with
  | ⟨0, _⟩ => show win0_0.index t (0 : Fin 2) * 2000 + 1 * p.val = n.val; omega
  | ⟨1, _⟩ => show win0_0.index t (1 : Fin 2) * 128 + 1 * κ.val = κ.val; omega

theorem hidBlk_read (c : Dev nD) (t : Fin cfg0.N) (p : Fin 2000) (κ : Fin 64) (n : Fin 50000)
    (hn : n.val = win0_7.index t (0 : Fin 2) * 2000 + p.val) : hidBlk m c t (ix2 p κ) = hidArr m c (ix2 n κ) := by
  obtain ⟨-, -, e0, e1, -⟩ := idx_facts t
  show V m c main_v51 (((cfg0.win 1).blk t).view.emb (ix2 p κ)) = V m c main_v51 (ix2 n κ)
  refine congrArg _ (funext fun a => Fin.ext ?_)
  match a with
  | ⟨0, _⟩ => show win0_1.index t (0 : Fin 2) * 2000 + 1 * p.val = n.val; omega
  | ⟨1, _⟩ => show win0_1.index t (1 : Fin 2) * 64 + 1 * κ.val = κ.val; omega

theorem cellBlk_read (c : Dev nD) (t : Fin cfg0.N) (p : Fin 2000) (κ : Fin 64) (n : Fin 50000)
    (hn : n.val = win0_7.index t (0 : Fin 2) * 2000 + p.val) : cellBlk m c t (ix2 p κ) = cellArr m c (ix2 n κ) := by
  obtain ⟨-, -, -, -, e0, e1, -⟩ := idx_facts t
  show V m c main_v52 (((cfg0.win 2).blk t).view.emb (ix2 p κ)) = V m c main_v52 (ix2 n κ)
  refine congrArg _ (funext fun a => Fin.ext ?_)
  match a with
  | ⟨0, _⟩ => show win0_2.index t (0 : Fin 2) * 2000 + 1 * p.val = n.val; omega
  | ⟨1, _⟩ => show win0_2.index t (1 : Fin 2) * 64 + 1 * κ.val = κ.val; omega

/-- The weight and bias windows hold their whole arrays at every point. -/
theorem wInBlk_read (c : Dev nD) (t : Fin cfg0.N) (j : Fin 256) (κ : Fin 128) : wInBlk m c t (ix2 j κ) = wInArr m c (ix2 j κ) := by
  obtain ⟨-, -, -, -, -, -, e0, e1, -⟩ := idx_facts t
  show V m c main_arg5 (((cfg0.win 3).blk t).view.emb (ix2 j κ)) = V m c main_arg5 (ix2 j κ)
  refine congrArg _ (funext fun a => Fin.ext ?_)
  match a with
  | ⟨0, _⟩ => show win0_3.index t (0 : Fin 2) * 256 + 1 * j.val = j.val; omega
  | ⟨1, _⟩ => show win0_3.index t (1 : Fin 2) * 128 + 1 * κ.val = κ.val; omega

theorem wHidBlk_read (c : Dev nD) (t : Fin cfg0.N) (j : Fin 256) (κ : Fin 64) : wHidBlk m c t (ix2 j κ) = wHidArr m c (ix2 j κ) := by
  obtain ⟨-, -, -, -, -, -, -, -, e0, e1, -⟩ := idx_facts t
  show V m c main_arg6 (((cfg0.win 4).blk t).view.emb (ix2 j κ)) = V m c main_arg6 (ix2 j κ)
  refine congrArg _ (funext fun a => Fin.ext ?_)
  match a with
  | ⟨0, _⟩ => show win0_4.index t (0 : Fin 2) * 256 + 1 * j.val = j.val; omega
  | ⟨1, _⟩ => show win0_4.index t (1 : Fin 2) * 64 + 1 * κ.val = κ.val; omega

theorem bInBlk_read (c : Dev nD) (t : Fin cfg0.N) (j : Fin 256) : bInBlk m c t (ix2 (0 : Fin 1) j) = bInArr m c (ix2 (0 : Fin 1) j) := by
  obtain ⟨-, -, -, -, -, -, -, -, -, -, e0, e1, -⟩ := idx_facts t
  show V m c main_v53 (((cfg0.win 5).blk t).view.emb (ix2 (0 : Fin 1) j)) = V m c main_v53 (ix2 (0 : Fin 1) j)
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * j.val = j.val; omega

theorem bHidBlk_read (c : Dev nD) (t : Fin cfg0.N) (j : Fin 256) : bHidBlk m c t (ix2 (0 : Fin 1) j) = bHidArr m c (ix2 (0 : Fin 1) j) := by
  obtain ⟨-, -, -, -, -, -, -, -, -, -, -, -, e0, e1, -⟩ := idx_facts t
  show V m c main_v54 (((cfg0.win 6).blk t).view.emb (ix2 (0 : Fin 1) j)) = V m c main_v54 (ix2 (0 : Fin 1) j)
  refine congrArg _ (funext fun a => Fin.ext ?_)
  match a with
  | ⟨0, _⟩ => show win0_6.index t (0 : Fin 2) * 1 + 1 * 0 = 0; omega
  | ⟨1, _⟩ => show win0_6.index t (1 : Fin 2) * 256 + 1 * j.val = j.val; omega

/-- The whole-array function of the arrays the region finds. -/
abbrev G (c : Dev nD) : Vec Ideal S50000x128 .f32 :=
  Lstm.outArr (featArr m c) (hidArr m c) (cellArr m c) (wInArr m c) (wHidArr m c)
    (fun j => bInArr m c (ix2 (0 : Fin 1) j)) (fun j => bHidArr m c (ix2 (0 : Fin 1) j))

/-- What the body stores at point t, at block index y, is G at the array index i that y is. -/
theorem stored_eq (c : Dev nD) (t : Fin cfg0.N) (y : S2000x128.Idx) (i : S50000x128.Idx)
    (h0 : (i 0).val = win0_7.index t (0 : Fin 2) * 2000 + (y 0).val) (h1 : (i 1).val = (y 1).val) :
    k0_pay1 (F := Ideal) (featBlk m c t) (hidBlk m c t) (wInBlk m c t) (wHidBlk m c t) (bInBlk m c t) (bHidBlk m c t) (cellBlk m c t) y
      = G m c i := by
  obtain ⟨p, col, rfl⟩ : ∃ (p : Fin 2000) (col : Fin 128), y = ix2 p col := ⟨y 0, y 1, eq_ix2 y⟩
  refine (Block.pay_apply (featBlk m c t) (hidBlk m c t) (wInBlk m c t) (wHidBlk m c t) (bInBlk m c t) (bHidBlk m c t) (cellBlk m c t) p col).trans ?_
  have hcol : (⟨(i 1).val, (i 1).isLt⟩ : Fin 128) = col := Fin.ext h1
  have hn : (⟨(i 0).val, (i 0).isLt⟩ : Fin 50000).val = win0_7.index t (0 : Fin 2) * 2000 + p.val := h0
  show _ = Lstm.outRow _ _ (⟨(i 1).val, (i 1).isLt⟩ : Fin 128)
  rw [hcol]
  simp only [featBlk_read m c t p _ _ hn, hidBlk_read m c t p _ _ hn, cellBlk_read m c t p _ _ hn, wInBlk_read, wHidBlk_read,
    bInBlk_read, bHidBlk_read]

/-- What point t writes back is block t of G. -/
theorem flushed_eq (c : Dev nD) (t : Fin cfg0.N) :
    (dats m 0 c).flushed 7 t = ((cfg0.win 7).blk t).view.read (Elt Ideal) (G m c) := by
  rw [Value.flushed7]
  unfold out0_7
  rw [View.canon_unit_zero hz]
  simp only [View.ld_unit_zero (S := S2000x128) hz, View.ld_unit_zero (S := S2000x64) hz, View.ld_unit_zero (S := S256x128) hz,
    View.ld_unit_zero (S := S256x64) hz, View.ld_unit_zero (S := S1x256) hz]
  funext y
  show k0_pay1 (F := Ideal) (featBlk m c t) (hidBlk m c t) (wInBlk m c t) (wHidBlk m c t) (bInBlk m c t) (bHidBlk m c t) (cellBlk m c t) y
      = G m c (((cfg0.win 7).blk t).view.emb y)
  obtain ⟨-, -, -, -, -, -, -, -, -, -, -, -, -, -, -, e1⟩ := idx_facts t
  refine stored_eq m c t y _ ?_ ?_
  · show win0_7.index t (0 : Fin 2) * 2000 + 1 * (y 0).val = win0_7.index t (0 : Fin 2) * 2000 + (y 0).val; omega
  · show win0_7.index t (1 : Fin 2) * 128 + 1 * (y 1).val = (y 1).val; omega

/-- An index of the array is in point t's block iff each coordinate is in the block's range on its axis. -/
theorem mem_blk (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v55).slice (win0_7.rect t)).set ↔ _
  rw [View.set_slice_whole, Rect.mem_set_unit]
  exact Iff.rfl

/-- The 25 row blocks cover the array. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- The output array after the run is G of the arrays the region finds. -/
theorem final (c : Dev nD) : (dats m 0 c).arrAt 7 cfg0.N = G m c :=
  (dats m 0 c).arrAt_eq_of_cover 7 (G m c) (fun t _ => flushed_eq m c t) cover

end Cert.KernelIdeal.Arr

end
-- ==== Proof.HostWindows.lean ====
/-
  What the region finds in the windows the host wrote.

  Before the region, @main gathers and averages the node features over the two edge types, twice each, and divides
  by the number of edge types that delivered a message: exactly the operations with which the reference begins, on
  the same arguments. So the aggregated hidden and cell inputs the region finds are the reference's own stages for
  them, as functions of the arguments; that chain of operations is never opened. The two bias windows are the bias
  vectors laid out as one row.
-/
import proofs.«117068_j21655225106656_1_alg».proof.Proof.Gen.KernelIdeal.Frame
import proofs.«117068_j21655225106656_1_alg».proof.Proof.RefReadP
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

set_option maxRecDepth 16384 in
set_option maxHeartbeats 4000000 in
/-- The aggregated hidden input, as the region finds it, is the reference's stage for it. -/
theorem hid_eq (c : Dev nD) :
    V m c main_v51 = Cert.ReferenceIdeal.ReadP.val_main_v51 (F := F) (m ((c : Thread nD τ).loc main_arg0)) (m ((c : Thread nD τ).loc main_arg1)) (m ((c : Thread nD τ).loc main_arg2))
      (m ((c : Thread nD τ).loc main_arg3)) (m ((c : Thread nD τ).loc main_arg4)) := by
  dsimp only [V, hostOps0]
  after_results_simp <;> rfl

set_option maxRecDepth 16384 in
set_option maxHeartbeats 4000000 in
/-- The aggregated cell input, as the region finds it, is the reference's stage for it. -/
theorem cell_eq (c : Dev nD) :
    V m c main_v52 = Cert.ReferenceIdeal.ReadP.val_main_v52 (F := F) (m ((c : Thread nD τ).loc main_arg0)) (m ((c : Thread nD τ).loc main_arg1)) (m ((c : Thread nD τ).loc main_arg2))
      (m ((c : Thread nD τ).loc main_arg3)) (m ((c : Thread nD τ).loc main_arg4)) := by
  dsimp only [V, hostOps0]
  after_results_simp <;> rfl

set_option maxRecDepth 16384 in
set_option maxHeartbeats 4000000 in
/-- The input-bias window is the input-bias vector as one row. -/
theorem bIn_eq (c : Dev nD) :
    (V m c main_v53 : S1x256.Idx → Elt F .f32) = shapeCast S1x256 (m ((c : Thread nD τ).loc main_arg7)) shapeCasts_S256_S1x256 := by
  dsimp only [V, hostOps0]
  after_results_simp <;> rfl

set_option maxRecDepth 16384 in
set_option maxHeartbeats 4000000 in
/-- The hidden-bias window is the hidden-bias vector as one row. -/
theorem bHid_eq (c : Dev nD) :
    (V m c main_v54 : S1x256.Idx → Elt F .f32) = shapeCast S1x256 (m ((c : Thread nD τ).loc main_arg8)) shapeCasts_S256_S1x256 := by
  dsimp only [V, hostOps0]
  after_results_simp <;> rfl

/-- Read at its one row. -/
theorem bIn_apply (c : Dev nD) (j : Fin 256) :
    (V m c main_v53 : S1x256.Idx → Elt F .f32) (ix2 (0 : Fin 1) j) = (m ((c : Thread nD τ).loc main_arg7)) (ix1 j) := by
  rw [bIn_eq]; exact shapeCast_a_1a_apply _ _ _ _

theorem bHid_apply (c : Dev nD) (j : Fin 256) :
    (V m c main_v54 : S1x256.Idx → Elt F .f32) (ix2 (0 : Fin 1) j) = (m ((c : Thread nD τ).loc main_arg8)) (ix1 j) := by
  rw [bHid_eq]; exact shapeCast_a_1a_apply _ _ _ _

end Cert.KernelIdeal.Host

end
-- ==== Proof.KernelValue.lean ====
/-
  The kernel's run, with its result named as a function of the arguments.

  After the run the output array is Cell.lean's outArr of the arrays the region finds (KernelArray.lean); the
  argument arrays among them are as launched, the aggregated inputs are the reference's own stages of the arguments
  and the bias rows are the bias vectors (HostWindows.lean).
-/
import proofs.«117068_j21655225106656_1_alg».proof.Proof.KernelArray
import proofs.«117068_j21655225106656_1_alg».proof.Proof.HostWindows

noncomputable section

namespace Cert.KernelIdeal.Arr

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- The result as a function of the arguments. -/
def result (c : Dev nD) : Vec Ideal S50000x128 .f32 :=
  Lstm.outArr (m ((c : Thread nD τ).loc main_arg0))
    (Cert.ReferenceIdeal.ReadP.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (m ((c : Thread nD τ).loc main_arg5)) (m ((c : Thread nD τ).loc main_arg6)) (fun j => (m ((c : Thread nD τ).loc main_arg7)) (ix1 j)) (fun j => (m ((c : Thread nD τ).loc main_arg8)) (ix1 j))

/-- The whole-array function of the arrays the region finds is that function of the arguments. -/
theorem G_eq (c : Dev nD) : G m c = result m c := by
  show Lstm.outArr (V m c main_arg0) (V m c main_v51) (V m c main_v52) (V m c main_arg5) (V m c main_arg6)
      (fun j => (V m c main_v53 : S1x256.Idx → Elt Ideal .f32) (ix2 (0 : Fin 1) j))
      (fun j => (V m c main_v54 : S1x256.Idx → Elt Ideal .f32) (ix2 (0 : Fin 1) j)) = _
  rw [V_main_arg0, Host.hid_eq, Host.cell_eq, V_main_arg5, V_main_arg6]
  have h5 : (fun j : Fin 256 => (V m c main_v53 : S1x256.Idx → Elt Ideal .f32) (ix2 (0 : Fin 1) j))
      = fun j => (m ((c : Thread nD τ).loc main_arg7)) (ix1 j) := funext fun j => Host.bIn_apply m c j
  have h6 : (fun j : Fin 256 => (V m c main_v54 : S1x256.Idx → Elt Ideal .f32) (ix2 (0 : Fin 1) j))
      = fun j => (m ((c : Thread nD τ).loc main_arg8)) (ix1 j) := funext fun j => Host.bHid_apply m c j
  exact congrArg₂ (fun b₁ b₂ : Fin 256 → EReal => Lstm.outArr (m ((c : Thread nD τ).loc main_arg0))
    (Cert.ReferenceIdeal.ReadP.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (m ((c : Thread nD τ).loc main_arg5)) (m ((c : Thread nD τ).loc main_arg6)) b₁ b₂) h5 h6

/-- The run re-posted: the output array at the result, the arguments unchanged. -/
theorem run : θ_run defs (onTc (τ := τ) (main (F := Ideal))) ⟨m, fun _ => 0, ρ⟩ fun r => ∀ c : Dev nD,
      r.2.mem ((c : Thread nD τ).loc main_v55) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (G_eq m c)), (h c).2⟩)
    (Cert.KernelIdeal.Value.run_blocks m ρ)

end Cert.KernelIdeal.Arr

end
-- ==== Proof.lean ====
/-
  An LSTM-cell update over 50000 graph nodes, tiled 2000 rows to a grid point, against the plain jnp computation.

  Both programs first aggregate the node features over two edge types with the same host operations; the kernel then
  computes, block by block, the gate pre-activations feat · W_ihᵀ + h · W_hhᵀ + b_ih + b_hh (bf16 operands, a change of
  format that is the identity on the extended reals), the logistic and tanh gates, and stores the new hidden state
  beside the new cell state. The reference computes the same on whole arrays, adding the first bias before the hidden
  product and spelling the logistic function as 1 / (1 + e^(-x)). On the extended reals the two are one function of
  the arguments (Cell.lean's outArr): addition is commutative and associative, a matrix product into zero is the
  plain sum, and the reference's quotient is the logistic function. No step needs the inputs to be finite.
  The kernel's frames are the generated frame certificates; the reference's frame is its run with the result dropped.
-/
import proofs.«117068_j21655225106656_1_alg».proof.Defs
import proofs.«117068_j21655225106656_1_alg».proof.Proof.Gen.Kernel
import proofs.«117068_j21655225106656_1_alg».proof.Proof.Gen.Kernel.Frame
import proofs.«117068_j21655225106656_1_alg».proof.Proof.Gen.KernelIdeal
import proofs.«117068_j21655225106656_1_alg».proof.Proof.Gen.KernelIdeal.Frame
import proofs.«117068_j21655225106656_1_alg».proof.Proof.Gen.KernelIdeal.Value
import proofs.«117068_j21655225106656_1_alg».proof.Proof.Gen.ReferenceIdeal
import proofs.«117068_j21655225106656_1_alg».proof.Proof.Gen.Pre_finite_inputs
import proofs.«117068_j21655225106656_1_alg».proof.Proof.RefRunP
import proofs.«117068_j21655225106656_1_alg».proof.Proof.RefReadP
import proofs.«117068_j21655225106656_1_alg».proof.Proof.RefRow
import proofs.«117068_j21655225106656_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- Both runs end with the result at Cell.lean's outArr of the arguments: the kernel's by its blocks, the reference's
    index by index; the arguments agree. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v92_eq, Cert.ReferenceIdeal.Row.out_eq]
  obtain ⟨h0, h1, h2, h3, h4, h5, h6, h7, h8⟩ := hagree c
  rw [h0, h1, h2, h3, h4, h5, h6, h7, h8]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
